-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S512x4096 : Shape := ⟨2, ![512, 4096]⟩
abbrev S512x256 : Shape := ⟨2, ![512, 256]⟩

abbrev nBuf : Space → Nat
  | .hbm => 6
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S256x256, .f32⟩
  | .local _ .vmem, ⟨4, _⟩ => ⟨S1x256, .f32⟩
  | .local _ .vmem, ⟨5, _⟩ => ⟨S512x256, .f32⟩
  | .local _ .vmem, ⟨6, _⟩ => ⟨S512x256, .f32⟩
  | .local _ .vmem, ⟨7, _⟩ => ⟨S4096x256, .f32⟩
  | .local _ .vmem, ⟨8, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v6 : BitVec 32 := Scalar.muli arg0 c512_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  inb_S512x4096_S512x4096_0_0 : ∀ a, (![0, 0] : Fin 2 → Nat) a + S512x4096.size a ≤ S512x4096.size a
  h_S512x4096 : 0 < S512x4096.numel
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  dot_S4096x256_S256x256_S4096x256_1_1_0_0_n_n_wf : DotDims.WF S4096x256 S256x256 S4096x256 [1] [1] [0] [0] [] []
  dot_S512x4096_S4096x256_S512x256_1_0_0_1_n_n_wf : DotDims.WF S512x4096 S4096x256 S512x256 [1] [0] [0] [1] [] []
  hrank0 : 0 < grid0.rank
  k0_off1_inb : ∀ i : grid0.Coords, ∀ a, (k0_off1 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S4096x256.size a
  hwx0_4 : ∀ i : grid0.Coords, EltTy.bits .f32 = 32 ∨ (Rect.block (s := S4096x256) S512x256.size (cc0_transform_4 i) (hinb0_4 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S4096x256, .f32⟩
  | .hbm, ⟨5, _⟩ => ⟨S4096x256, .f32⟩
  | .hbm, ⟨6, _⟩ => ⟨S256x256, .f32⟩
  | .hbm, ⟨7, _⟩ => ⟨S4096x256, .f32⟩
  | .hbm, ⟨8, _⟩ => ⟨S1x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .i1⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.Spec.lean ====
/-
  The graph-aggregation layer as ONE function of its four arguments, entry by entry, on the extended reals.

  With E the node embeddings [4096, 256], A the adjacency weights [4096, 4096], W the linear map [256, 256] (stored
  output-major: row j holds the weights of output feature j) and b the bias [256], the layer's pre-activation at
  node r, feature j can be written in two ways:

    * aggregate first:  ∑_d (E(r,d) + ∑_k A(r,k)·E(k,d)) · W(j,d) + b(j)
    * project first:    (∑_k A(r,k)·Y(k,j) + Y(r,j)) + b(j),   where Y(k,j) = ∑_d E(k,d)·W(j,d).

  They agree because multiplication distributes over the finite sums and the two summations may be exchanged;
  on the extended reals that needs every entry of E, A and W to be a real number (the bias is only added last,
  to the same quantity on both sides, and needs nothing). The activation (the leaky rectifier: o where o ≥ 0,
  else the slope times o) is applied to that one quantity, with the same two constants on both sides, so it is
  kept as a named function and never opened.
-/
import Idealize.ShloMosaic.PureOps.Ideal.Laws
import Idealize.ShloMosaic.Lib.ValueIdx

noncomputable section

namespace Cert.Agg

open Idealize.ShloMosaic Idealize.ShloMosaic.ValueIdx

/-- Embeddings, projected embeddings and the result: 4096 nodes by 256 features. -/
abbrev SE : Shape := ⟨2, ![4096, 256]⟩
/-- Adjacency weights: 4096 by 4096. -/
abbrev SA : Shape := ⟨2, ![4096, 4096]⟩
/-- The linear map, output feature by input feature: 256 by 256. -/
abbrev SW : Shape := ⟨2, ![256, 256]⟩
/-- The bias: 256. -/
abbrev SB : Shape := ⟨1, ![256]⟩

/-- The leaky rectifier on one extended real: the value itself where it is at least zero, else the slope
    (the single-precision number nearest 1/100) times it. -/
def act (o : Ideal .f32) : Ideal .f32 :=
  Scalar.select (FloatOps.cmpf (F := Ideal) (φ := .f32) .oge o (FloatOps.ofBits (F := Ideal) .f32 0x00000000#32)) o
    (FloatOps.mulf (F := Ideal) (φ := .f32) (FloatOps.ofBits (F := Ideal) .f32 0x3C23D70A#32) o)

variable (E : FVec Ideal SE .f32) (A : FVec Ideal SA .f32) (W : FVec Ideal SW .f32) (b : FVec Ideal SB .f32)

/-- The projected embedding of node k at output feature j: Y(k,j) = ∑_d E(k,d)·W(j,d). -/
def projAt (k : Fin 4096) (j : Fin 256) : EReal := ∑ d : Fin 256, E (ix2 k d) * W (ix2 j d)

/-- The projected embeddings as an array. -/
def proj : FVec Ideal SE .f32 := fun i => projAt E W (i 0) (i 1)

/-- Project first, then aggregate: the result at node r, feature j. -/
def outAt (r : Fin 4096) (j : Fin 256) : EReal :=
  act ((∑ k : Fin 4096, A (ix2 r k) * projAt E W k j + projAt E W r j) + b (ix1 j))

/-- The layer's result as an array: the function both programs compute. -/
def G : FVec Ideal SE .f32 := fun i => outAt E A W b (i 0) (i 1)

/-- Aggregate first, then project: the result at node r, feature j. -/
def refAt (r : Fin 4096) (j : Fin 256) : EReal :=
  act (∑ d : Fin 256, (E (ix2 r d) + ∑ k : Fin 4096, A (ix2 r k) * E (ix2 k d)) * W (ix2 j d) + b (ix1 j))

/-! ## The law over the reals -/

/-- Distributing the row of W over "own embedding plus aggregated neighbours" and exchanging the two sums. -/
theorem real_law {ι κ : Type*} [Fintype ι] [Fintype κ] (er : κ → ℝ) (ar : ι → ℝ) (e : ι → κ → ℝ) (w : κ → ℝ) :
    ∑ d, (er d + ∑ k, ar k * e k d) * w d = ∑ k, ar k * (∑ d, e k d * w d) + ∑ d, er d * w d := by
  simp only [add_mul, Finset.sum_add_distrib, Finset.sum_mul, Finset.mul_sum]
  rw [add_comm, Finset.sum_comm]
  congr 1
  exact Finset.sum_congr rfl fun k _ => Finset.sum_congr rfl fun d _ => by ring

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two forms agree on real-valued arguments -/

/-- On arguments whose entries are all real numbers the two forms of the layer are the same extended real. -/
theorem refAt_eq_outAt (hE : ∀ i, ∃ x : ℝ, E i = (x : EReal)) (hA : ∀ i, ∃ x : ℝ, A i = (x : EReal))
    (hW : ∀ i, ∃ x : ℝ, W i = (x : EReal)) (r : Fin 4096) (j : Fin 256) :
    refAt E A W b r j = outAt E A W b r j := by
  choose e he using hE
  choose a ha using hA
  choose w hw using hW
  unfold refAt outAt projAt
  congr 2
  simp only [he, ha, hw, ← EReal.coe_mul, ← coe_sum, ← EReal.coe_add]
  exact congrArg _ (real_law (fun d => e (ix2 r d)) (fun k => a (ix2 r k)) (fun k d => e (ix2 k d)) (fun d => w (ix2 j d)))

end Cert.Agg

end
-- ==== Proof.Finite.lean ====
/-
  What the precondition gives: every entry of every argument is a real number.

  The precondition is the conjunction, over the four arguments, of "all entries x satisfy |x| < +∞". On the
  extended reals |x| = max x (−x), and max x (−x) < +∞ rules out both infinities, so x is the image of a real.
-/
import proofs.«180344_g10445360464162_week1_w2_143_13_alg».proof.Pre_finite_inputs
import Idealize.ShloMosaic.PureOps.Ideal.Laws
import Idealize.ShloMosaic.Lib.ReduceAll
import Idealize.ShloMosaic.Lib.ValueIdx
import Idealize.ShloMosaic.Lib.Pipeline.Value

noncomputable section

namespace Cert.Agg.Finite

open Idealize.ShloMosaic Cert.Pre_finite_inputs

/-- An extended real whose absolute value is below +∞ (the bit pattern of the single-precision infinity) is a real. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : FloatOps.ofBits (F := Ideal) .f32 0x7F800000#32 = (⊤ : EReal) := by
    show Ideal.ofBits .f32 0x7F800000#32 = ⊤
    simp [Ideal.ofBits, Ideal.ieee]
  rw [htop] at h
  induction x using EReal.rec with
  | bot => exact absurd h (by simp [Ideal.cmpf_def, Ideal.cmp, FloatOps.hostAbsf])
  | coe r => exact ⟨r, rfl⟩
  | top => exact absurd h (by simp [Ideal.cmpf_def, Ideal.cmp, FloatOps.hostAbsf])

instance : Subsingleton S_.Idx := ⟨fun a b => funext fun d => d.elim0⟩

variable [Cert.Pre_finite_inputs.Facts]

/-- The precondition, all ones, makes every entry of the four arguments a real number. -/
theorem reals_of_pre (x0 : FVec Ideal S4096x256 .f32) (x1 : FVec Ideal S4096x4096 .f32) (x2 : FVec Ideal S256x256 .f32)
    (x3 : FVec Ideal S256 .f32) (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.Agg.Finite

end
-- ==== Proof.RefValue.lean ====
/-
  The reference program's result, entry by entry: aggregate the neighbours' embeddings, add the node's own,
  apply the linear map (a product with the transposed weight matrix: entry (d, j) of the transpose is W(j, d)),
  add the bias broadcast over the nodes, and apply the leaky rectifier. Read at node r and feature j this is
  the "aggregate first" form of the layer.
-/
import proofs.«180344_g10445360464162_week1_w2_143_13_alg».proof.Proof.Gen.ReferenceIdeal.Read
import proofs.«180344_g10445360464162_week1_w2_143_13_alg».proof.Proof.Spec

noncomputable section

namespace Cert.Agg.Ref

open Cert.ReferenceIdeal Cert.ReferenceIdeal.Read Idealize.ShloMosaic Idealize.ShloMosaic.ValueIdx

/-- The reference's last stage at (r, j) is the "aggregate first" form. -/
theorem val_apply (x0 : (⟨S4096x256, .f32⟩ : BufTy).Contents (Elt Ideal)) (x1 : (⟨S4096x4096, .f32⟩ : BufTy).Contents (Elt Ideal))
    (x2 : (⟨S256x256, .f32⟩ : BufTy).Contents (Elt Ideal)) (x3 : (⟨S256, .f32⟩ : BufTy).Contents (Elt Ideal)) (r : Fin 4096) (j : Fin 256) :
    val_main_v11 (F := Ideal) x0 x1 x2 x3 (ix2 r j) = Cert.Agg.refAt x0 x1 x2 x3 r j := by
  -- the left operand of the second product is read along row r, the right one (the transpose) at (d, j), that is W(j, d)
  have h1 : ∀ d : Fin 256, lidx_main_v3 (ix2 r j) d = ix2 r d := fun d =>
    funext fun a => Fin.ext (by match a with | ⟨0, _⟩ => rfl | ⟨1, _⟩ => rfl)
  have h2 : ∀ d : Fin 256, idx_main_v2 (ridx_main_v3 (ix2 r j) d) = ix2 j d := fun d =>
    funext fun a => Fin.ext (by match a with | ⟨0, _⟩ => rfl | ⟨1, _⟩ => rfl)
  -- the first product at (r, d): row r of A against column d of E
  have h3 : ∀ (d : Fin 256) (k : Fin 4096), lidx_main_v0 (ix2 r d) k = ix2 r k := fun d k =>
    funext fun a => Fin.ext (by match a with | ⟨0, _⟩ => rfl | ⟨1, _⟩ => rfl)
  have h4 : ∀ (d : Fin 256) (k : Fin 4096), ridx_main_v0 (ix2 r d) k = ix2 k d := fun d k =>
    funext fun a => Fin.ext (by match a with | ⟨0, _⟩ => rfl | ⟨1, _⟩ => rfl)
  -- the bias, broadcast twice, is read at feature j
  have h5 : idx_main_v4 (idx_main_v5 (ix2 r j)) = ix1 j :=
    funext fun a => Fin.ext (by match a with | ⟨0, _⟩ => rfl)
  rw [val_main_v11_apply, val_main_v8_apply, val_main_v10_apply, val_main_v6_apply, val_main_v7_apply, val_main_v9_apply,
    val_main_cst_apply, val_main_cst_0_apply, val_main_v3_apply, val_main_v5_apply, val_main_v4_apply]
  simp only [val_main_v1_apply, val_main_v0_apply, val_main_v2_apply, h1, h2, h3, h4, h5]
  rfl

/-- The reference's last stage is the "aggregate first" form, as arrays. -/
theorem val_eq (x0 : (⟨S4096x256, .f32⟩ : BufTy).Contents (Elt Ideal)) (x1 : (⟨S4096x4096, .f32⟩ : BufTy).Contents (Elt Ideal))
    (x2 : (⟨S256x256, .f32⟩ : BufTy).Contents (Elt Ideal)) (x3 : (⟨S256, .f32⟩ : BufTy).Contents (Elt Ideal)) :
    val_main_v11 (F := Ideal) x0 x1 x2 x3 = fun i => Cert.Agg.refAt x0 x1 x2 x3 (i 0) (i 1) := by
  funext i
  obtain ⟨r, j, rfl⟩ : ∃ (r : Fin 4096) (j : Fin 256), i = ix2 r j := ⟨i 0, i 1, eq_ix2 i⟩
  exact val_apply x0 x1 x2 x3 r j

end Cert.Agg.Ref

end
-- ==== Proof.Pieces.lean ====
/-
  What one run of the kernel body leaves behind, as values of what it loaded.

  At the first grid point the body computes the projected embeddings Y = E·Wᵀ once, stores them whole into the two
  scratch buffers (the second copy after a change of format), and then computes its output block from the row block of
  A, the second copy of Y read back whole, rows [512·i, 512·i + 512) of the first copy read back, and the bias row.
  At every later point it stores nothing into the scratch buffers and computes its output block in the same way from
  what the scratch buffers already hold.
-/
import proofs.«180344_g10445360464162_week1_w2_143_13_alg».proof.Proof.Gen.KernelIdeal.Frame
import Idealize.ShloMosaic.Lib.Pipeline.Value

set_option maxRecDepth 16384

noncomputable section

namespace Cert.Agg.Kern

open Cert.KernelIdeal Cert.KernelIdeal.Gen Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-- Reading a buffer in which one store through the whole-shape rectangle was made (over anything) gives the stored value. -/
theorem read_writes_unit_zero {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- The rows of the first scratch copy that the body adds to its product: 512 rows from row 512·i on. -/
abbrev rowsOf (i : grid0.Coords) (Y : Vec F S4096x256 .f32) : Vec F S512x256 .f32 :=
  View.ld Y (Rect.unit (s := S4096x256) (k0_off1 i) S512x256.size (Facts₀.k0_off1_inb i))

/-- First point, first scratch buffer: the projected embeddings. -/
theorem scratch0_A (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S4096x256 .f32) (harg6 : arg6.IsWhole) (arg7 : Memref sig .tc .vmem S4096x256 .bf16) (harg7 : arg7.IsWhole) (hc0 : cond0_0 i)
    (x0 : Vec F S512x4096 .f32) (x1 : Vec F S4096x256 .f32) (x2 : Vec F S256x256 .f32) (x3 : Vec F S1x256 .f32) :
    sout0_A_0 (F := F) c i arg1 harg1 arg2 harg2 arg3 harg3 arg4 harg4 arg5 harg5 arg6 harg6 arg7 harg7 hc0 x0 x1 x2 x3 = k0_pay2 x1 x2 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, View.ld_unit_zero (S := S4096x256) hz,
    View.ld_unit_zero (S := S256x256) hz]

/-- First point, second scratch buffer: the projected embeddings after the change of format. -/
theorem scratch1_A (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S4096x256 .f32) (harg6 : arg6.IsWhole) (arg7 : Memref sig .tc .vmem S4096x256 .bf16) (harg7 : arg7.IsWhole) (hc0 : cond0_0 i)
    (x0 : Vec F S512x4096 .f32) (x1 : Vec F S4096x256 .f32) (x2 : Vec F S256x256 .f32) (x3 : Vec F S1x256 .f32) :
    sout0_A_1 (F := F) c i arg1 harg1 arg2 harg2 arg3 harg3 arg4 harg4 arg5 harg5 arg6 harg6 arg7 harg7 hc0 x0 x1 x2 x3 = k0_pay3 x1 x2 := by
  unfold sout0_A_1
  rw [View.read_writes_eq_canon _ _ _ (scover0_A_1 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, View.ld_unit_zero (S := S4096x256) hz,
    View.ld_unit_zero (S := S256x256) hz]

/-- First point, the output block: the body's last value of the A block, the freshly stored second copy, the rows of
    the freshly stored first copy, and the bias row. -/
theorem out_A (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S4096x256 .f32) (harg6 : arg6.IsWhole) (arg7 : Memref sig .tc .vmem S4096x256 .bf16) (harg7 : arg7.IsWhole) (hc0 : cond0_0 i)
    (x0 : Vec F S512x4096 .f32) (x1 : Vec F S4096x256 .f32) (x2 : Vec F S256x256 .f32) (x3 : Vec F S1x256 .f32) :
    out0_A_4 (F := F) c i arg1 harg1 arg2 harg2 arg3 harg3 arg4 harg4 arg5 harg5 arg6 harg6 arg7 harg7 hc0 x0 x1 x2 x3 = k0_pay4 x0 (k0_pay3 x1 x2) (rowsOf i (k0_pay2 x1 x2)) x3 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S512x4096) hz, View.ld_unit_zero (S := S4096x256) hz, View.ld_unit_zero (S := S256x256) hz,
    View.ld_unit_zero (S := S1x256) hz, View.readCov_unit_zero (S := S4096x256) _ hz, read_writes_unit_zero (S := S4096x256) _ _ hz]
  rfl

/-- A later point, the output block: the same value of the A block, what the scratch buffers held, and the bias row. -/
theorem out_B (c : Dev nD) (i : grid0.Coords) (arg1 : Memref sig .tc .vmem S512x4096 .f32) (harg1 : arg1.IsWhole) (arg2 : Memref sig .tc .vmem S4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S4096x256 .f32) (harg6 : arg6.IsWhole) (arg7 : Memref sig .tc .vmem S4096x256 .bf16) (harg7 : arg7.IsWhole) (hc0 : ¬cond0_0 i)
    (x0 : Vec F S512x4096 .f32) (x1 : Vec F S4096x256 .f32) (x2 : Vec F S256x256 .f32) (x3 : Vec F S1x256 .f32)
    (xs0 : Vec F S4096x256 .f32) (xs1 : Vec F S4096x256 .bf16) :
    out0_B_4 (F := F) c i arg1 harg1 arg2 harg2 arg3 harg3 arg4 harg4 arg5 harg5 arg6 harg6 arg7 harg7 hc0 x0 x1 x2 x3 xs0 xs1 = k0_pay4 x0 xs1 (rowsOf i xs0) x3 := by
  unfold out0_B_4
  rw [View.read_writes_eq_canon _ _ _ (cover0_B_4 c i arg1 harg1 arg2 harg2 arg3 harg3 arg4 harg4 arg5 harg5 arg6 harg6 arg7 harg7 hc0 x0 x1 x2 x3 xs0 xs1)]
  unfold kernelRun0_B
  dsimp only
  sl_unfold_words
  rw [View.canon_unit_zero hz]
  simp only [View.readAt_eq_ld, harg1.read_unread, harg4.read_unread, harg6.read_unread, harg7.read_unread,
    View.ld_unit_zero (S := S512x4096) hz, View.ld_unit_zero (S := S4096x256) hz, View.ld_unit_zero (S := S1x256) hz]
  rfl

end Cert.Agg.Kern

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.LibRhsTDot.lean ====
/-
  A matrix product of an [R, K] operand by a [C, K] operand whose SECOND axis is the contracted one (the
  dimension numbers lhs_contracting = [1], rhs_contracting = [1], no batch axes: "l times r transposed", written
  without materialising the transpose), read at an entry (p, q) on the extended reals: the plain sum over k of
  l(p, k) · r(q, k). Stated for ANY dimension-number record of that form, whatever its name and whatever R, K, C are.
-/
import Idealize.ShloMosaic.PureOps.Ideal.Laws
import Idealize.ShloMosaic.Lib.ValueIdx

noncomputable section

namespace Idealize.ShloMosaic.RhsTDot

open Idealize.ShloMosaic Idealize.ShloMosaic.ValueIdx

variable {R K C : ℕ}

/-- The dimension numbers of a row-by-row product: axis 1 of the left operand is contracted with axis 1 of the
    right operand; axis 0 of each survives, the left operand's first; no batch axes. -/
structure IsRhsT (d : DotDims ⟨2, ![R, K]⟩ ⟨2, ![C, K]⟩ ⟨2, ![R, C]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![R, K]⟩ ⟨2, ![C, K]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsRhsT d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's row is the result's column. -/
theorem rhs_row (h : IsRhsT d) (j : (⟨2, ![R, C]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsRhsT d) : d.contr.rank = 1 := by
  rw [d.rank_contr, h.lc]; rfl

theorem contr_size (h : IsRhsT d) : d.contr.size ⟨0, by rw [contr_rank h]; exact Nat.one_pos⟩ = K := by
  rw [d.size_contr 0 (by rw [h.lc]; exact Nat.one_pos)]
  simp [h.lc]

/-- The contraction read at (p, q): the sum over the shared second axis. -/
theorem sum_apply (h : IsRhsT d) {φ₁ φ₂ : FTy} (l : FVec Ideal ⟨2, ![R, K]⟩ φ₁) (r : FVec Ideal ⟨2, ![C, K]⟩ φ₂)
    (p : Fin R) (q : Fin C) :
    (∑ k : d.contr.Idx, l (d.lhsIdx (ix2 p q) k) * r (d.rhsIdx (ix2 p q) k)) = ∑ k : Fin K, l (ix2 p k) * r (ix2 q k) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 q k := funext fun a => Fin.ext (by
    match a with
    | ⟨0, _⟩ => exact rhs_row h _ _
    | ⟨1, _⟩ => exact (d.rhsIdx_val_of_single h.rc _ _).trans hk)
  rw [el, er]

/-- A kernel's row-by-row product into a zero accumulator, read at (p, q). -/
theorem matmul_zero_apply (h : IsRhsT d) {φ₁ φ₂ : FTy} (prec : Option ContractPrecision)
    (l : FVec Ideal ⟨2, ![R, K]⟩ φ₁) (r : FVec Ideal ⟨2, ![C, K]⟩ φ₂) (p : Fin R) (q : Fin C) :
    FloatOps.matmul d prec l r (constant ⟨2, ![R, C]⟩ .f32 0x00000000#32) (ix2 p q) = ∑ k : Fin K, l (ix2 p k) * r (ix2 q k) := by
  rw [Ideal.matmul_constant_zero_apply]
  exact sum_apply h l r p q

/-- The host's row-by-row product read at (p, q). -/
theorem dotGeneral_apply (h : IsRhsT d) {φ₁ φ₂ : FTy} (prec : Option ContractPrecision) (sched : HostSchedule)
    (l : FVec Ideal ⟨2, ![R, K]⟩ φ₁) (r : FVec Ideal ⟨2, ![C, K]⟩ φ₂) (p : Fin R) (q : Fin C) :
    FloatOps.dotGeneral d prec sched l r (ix2 p q) = ∑ k : Fin K, l (ix2 p k) * r (ix2 q k) := by
  rw [Ideal.dotGeneral_apply]
  exact sum_apply h l r p q

end Idealize.ShloMosaic.RhsTDot

end
-- ==== Proof.Payload.lean ====
/-
  The body's arithmetic, entry by entry, on the extended reals.

  The first product contracts the feature axis of E with the feature axis of W (W is stored output-major), so its
  entry (k, j) is ∑_d E(k,d)·W(j,d); the copy kept for the second product differs only by a change of format, which
  is the identity here. The output block's entry (p, q) is the activation of
  (∑_k a(p,k)·y(k,q) + y'(p,q)) + bias(0,q), for whatever block a, arrays y, y' and bias row the body loaded.
-/
import proofs.«180344_g10445360464162_week1_w2_143_13_alg».proof.Proof.Gen.KernelIdeal.Skeleton
import proofs.«180344_g10445360464162_week1_w2_143_13_alg».proof.Proof.Spec
import proofs.«180344_g10445360464162_week1_w2_143_13_alg».proof.Proof.LibPlainDot
import proofs.«180344_g10445360464162_week1_w2_143_13_alg».proof.Proof.LibRhsTDot
import Idealize.ShloMosaic.Lib.Pipeline.Value

noncomputable section

namespace Cert.Agg.Kern

open Cert.KernelIdeal Cert.KernelIdeal.Gen Idealize.ShloMosaic Idealize.ShloMosaic.ValueIdx

/-- The first product at (k, j): row k of the embeddings against row j of the weights. -/
theorem pay1_apply (e : Vec Ideal S4096x256 .f32) (w : Vec Ideal S256x256 .f32) (k : Fin 4096) (j : Fin 256) :
    k0_pay1 (F := Ideal) e w (ix2 k j) = ∑ d : Fin 256, e (ix2 k d) * w (ix2 j d) := by
  unfold k0_pay1
  exact RhsTDot.matmul_zero_apply ⟨rfl, rfl, rfl, rfl, rfl, rfl⟩ none e w k j

/-- What goes into the first scratch buffer is the first product. -/
theorem pay2_eq (e : Vec Ideal S4096x256 .f32) (w : Vec Ideal S256x256 .f32) :
    k0_pay2 (F := Ideal) e w = Cert.Agg.proj e w := by
  unfold k0_pay2
  rw [shapeCast_self]
  funext i
  obtain ⟨k, j, rfl⟩ : ∃ (k : Fin 4096) (j : Fin 256), i = ix2 k j := ⟨i 0, i 1, eq_ix2 i⟩
  exact pay1_apply e w k j

/-- What goes into the second scratch buffer is the same array of extended reals. -/
theorem pay3_eq (e : Vec Ideal S4096x256 .f32) (w : Vec Ideal S256x256 .f32) :
    k0_pay3 (F := Ideal) e w = Cert.Agg.proj e w := by
  unfold k0_pay3
  dsimp only
  rw [shapeCast_self]
  funext i
  obtain ⟨k, j, rfl⟩ : ∃ (k : Fin 4096) (j : Fin 256), i = ix2 k j := ⟨i 0, i 1, eq_ix2 i⟩
  exact pay1_apply e w k j

/-- The output block at (p, q). -/
theorem pay4_apply (a : Vec Ideal S512x4096 .f32) (y : Vec Ideal S4096x256 .bf16) (y' : Vec Ideal S512x256 .f32)
    (bias : Vec Ideal S1x256 .f32) (p : Fin 512) (q : Fin 256) :
    k0_pay4 (F := Ideal) a y y' bias (ix2 p q)
      = Cert.Agg.act ((∑ k : Fin 4096, a (ix2 p k) * y (ix2 k q) + y' (ix2 p q)) + bias (ix2 0 q)) := by
  have e : k0_pay4 (F := Ideal) a y y' bias (ix2 p q)
      = Cert.Agg.act ((FloatOps.matmul dot_S512x4096_S4096x256_S512x256_1_0_0_1_n_n none a y (constant S512x256 .f32 0x00000000#32) (ix2 p q)
          + y' (ix2 p q))
        + broadcastTo S512x256 (shapeCast S1x256 bias Facts₀.shapeCasts_S1x256_S1x256) Facts₀.broadcasts_S1x256_S512x256 (ix2 p q)) := rfl
  rw [e, PlainDot.matmul_zero_apply ⟨rfl, rfl, rfl, rfl, rfl, rfl⟩,
    broadcastTo_apply _ _ _ (ix2 0 q) (fun a => by match a with | ⟨0, _⟩ => rfl | ⟨1, _⟩ => rfl), shapeCast_self]

end Cert.Agg.Kern

end
-- ==== Proof.KernValue.lean ====
/-
  The kernel's result array, as one function of the four arguments.

  The grid has eight points; point t works on rows [512·t, 512·t + 512). The embeddings, the weights and the bias row
  are whole-array blocks that never move; the block of A at point t is its rows 512·t …; the output block at point t
  is rows 512·t … of the result. The two scratch buffers are filled at point 0 with the projected embeddings
  Y = E·Wᵀ and are not written again, so after EVERY point they hold Y (an induction over the points). Hence the block
  written back at point t is, entry (p, q): the activation of (∑_k A(512t+p, k)·Y(k,q) + Y(512t+p, q)) + b(q), which is
  block t of the layer's "project first" form; the eight blocks tile the result array.
-/
import proofs.«180344_g10445360464162_week1_w2_143_13_alg».proof.Proof.Gen.KernelIdeal.Value
import proofs.«180344_g10445360464162_week1_w2_143_13_alg».proof.Proof.Pieces
import proofs.«180344_g10445360464162_week1_w2_143_13_alg».proof.Proof.Payload
import Idealize.ShloMosaic.Lib.Pipeline.Value
import Idealize.ShloMosaic.Lib.StableHlo.Run
import Idealize.ShloMosaic.Lib.Tactic

noncomputable section

namespace Cert.Agg.Kern

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four arguments as launched, at their literal types. -/
abbrev Earr (c : Dev nD) : Vec Ideal S4096x256 .f32 := m ((c : Thread nD τ).loc main_arg0)
abbrev Aarr (c : Dev nD) : Vec Ideal S4096x4096 .f32 := m ((c : Thread nD τ).loc main_arg1)
abbrev Warr (c : Dev nD) : Vec Ideal S256x256 .f32 := m ((c : Thread nD τ).loc main_arg2)
abbrev barr (c : Dev nD) : Vec Ideal S256 .f32 := m ((c : Thread nD τ).loc main_arg3)

/-- The four input blocks at point t, at their literal types. -/
abbrev ablk (c : Dev nD) (t : Fin cfg0.N) : Vec Ideal S512x4096 .f32 := iblk m c 0 t
abbrev eblk (c : Dev nD) (t : Fin cfg0.N) : Vec Ideal S4096x256 .f32 := iblk m c 1 t
abbrev wblk (c : Dev nD) (t : Fin cfg0.N) : Vec Ideal S256x256 .f32 := iblk m c 2 t
abbrev bblk (c : Dev nD) (t : Fin cfg0.N) : Vec Ideal S1x256 .f32 := iblk m c 3 t

/-- The printed index maps and the scratch read's offset, decided over the eight points: A's block and the output's
    block are at block row t, the other three blocks at (0, 0), and the scratch rows start at 512·t. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 512 * t.val ∧ k0_off1 (grid0.coords t) (1 : Fin 2) = 0 :=
  (by decide +kernel : ∀ t : Fin grid0.N, _)

/-- Row p of block row t, as a row of the whole array. -/
def rowOf (t : Fin cfg0.N) (p : Fin 512) : Fin 4096 :=
  ⟨512 * t.val + p.val, by have := lt_of_lt_of_eq t.isLt (show cfg0.N = 8 from N_0); have := p.isLt; omega⟩

/-! ## The input blocks read off the arguments -/

/-- The embeddings' block is the whole array. -/
theorem eblk_eq (c : Dev nD) (t : Fin cfg0.N) : eblk m c t = Earr m c := by
  obtain ⟨-, -, e0, e1, -⟩ := idx_facts t
  funext y
  unfold eblk iblk
  rw [View.read_apply]
  show V m c main_arg0 _ = m ((c : Thread nD τ).loc main_arg0) y
  rw [V_main_arg0]
  congr 1
  funext a
  apply Fin.ext
  match a with
  | ⟨0, _⟩ => show win0_1.index t (0 : Fin 2) * 4096 + 1 * (y 0).val = (y 0).val; omega
  | ⟨1, _⟩ => show win0_1.index t (1 : Fin 2) * 256 + 1 * (y 1).val = (y 1).val; omega

/-- The weights' block is the whole array. -/
theorem wblk_eq (c : Dev nD) (t : Fin cfg0.N) : wblk m c t = Warr m c := by
  obtain ⟨-, -, -, -, e0, e1, -⟩ := idx_facts t
  funext y
  unfold wblk iblk
  rw [View.read_apply]
  show V m c main_arg2 _ = m ((c : Thread nD τ).loc main_arg2) y
  rw [V_main_arg2]
  congr 1
  funext a
  apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- A's block at point t holds rows 512·t … of A. -/
theorem ablk_apply (c : Dev nD) (t : Fin cfg0.N) (p : Fin 512) (k : Fin 4096) :
    ablk m c t (ix2 p k) = Aarr m c (ix2 (rowOf t p) k) := by
  obtain ⟨e0, e1, -⟩ := idx_facts t
  unfold ablk iblk
  rw [View.read_apply]
  show V m c main_arg1 _ = m ((c : Thread nD τ).loc main_arg1) _
  rw [V_main_arg1]
  congr 1
  funext a
  apply Fin.ext
  match a with
  | ⟨0, _⟩ => show win0_0.index t (0 : Fin 2) * 512 + 1 * p.val = 512 * t.val + p.val; omega
  | ⟨1, _⟩ => show win0_0.index t (1 : Fin 2) * 4096 + 1 * k.val = k.val; omega

/-- The bias row the kernel is handed is the bias with a unit axis in front: the one host operation before the call. -/
theorem brow_eq (c : Dev nD) :
    (V m c main_call0_v0 : S1x256.Idx → EReal) = shapeCast S1x256 (barr m c) Facts₀.shapeCasts_S256_S1x256 := by
  dsimp only [Gen.V, Gen.hostOps0]
  after_results
  rfl

/-- The bias row's block, read at (0, q), is b(q). -/
theorem bblk_apply (c : Dev nD) (t : Fin cfg0.N) (q : Fin 256) : bblk m c t (ix2 0 q) = barr m c (ix1 q) := by
  obtain ⟨-, -, -, -, -, -, e0, e1, -⟩ := idx_facts t
  unfold bblk iblk
  rw [View.read_apply]
  show V m c main_call0_v0 _ = _
  rw [brow_eq]
  have hi : (((cfg0.win 3).blk t).view.emb (ix2 (0 : Fin 1) q) : S1x256.Idx) = ix2 (0 : Fin 1) q := by
    funext a
    apply Fin.ext
    match a with
    | ⟨0, _⟩ => show win0_3.index t (0 : Fin 2) * 1 + 1 * 0 = 0; omega
    | ⟨1, _⟩ => show win0_3.index t (1 : Fin 2) * 256 + 1 * q.val = q.val; omega
  show shapeCast S1x256 (barr m c) Facts₀.shapeCasts_S256_S1x256 (((cfg0.win 3).blk t).view.emb (ix2 (0 : Fin 1) q)) = _
  rw [hi]
  exact (shapeCast_addUnit_apply (![256] : Fin 1 → Nat) (barr m c) Facts₀.shapeCasts_S256_S1x256 (ix2 (0 : Fin 1) q)).trans
    (congrArg (barr m c) (funext fun a => by match a with | ⟨0, _⟩ => rfl))

/-- The rows of a scratch array that point t adds to its product are rows 512·t … of it. -/
theorem rowsOf_apply (t : Fin cfg0.N) (Y : Vec Ideal S4096x256 .f32) (p : Fin 512) (q : Fin 256) :
    rowsOf (grid0.coords t) Y (ix2 p q) = Y (ix2 (rowOf t p) q) := by
  obtain ⟨-, -, -, -, -, -, -, -, -, -, e0, e1⟩ := idx_facts t
  show Y _ = Y _
  congr 1
  funext a
  apply Fin.ext
  match a with
  | ⟨0, _⟩ => show k0_off1 (grid0.coords t) (0 : Fin 2) + 1 * p.val = 512 * t.val + p.val; omega
  | ⟨1, _⟩ => show k0_off1 (grid0.coords t) (1 : Fin 2) + 1 * q.val = q.val; omega

/-! ## The scratch buffers after every point -/

/-- After every point both scratch buffers hold the projected embeddings: written at point 0, untouched afterwards. -/
theorem scratch_eq (c : Dev nD) : ∀ (n : ℕ) (h : n < cfg0.N),
    (outsAt0 m c n h).2.1 = Cert.Agg.proj (Earr m c) (Warr m c) ∧ (outsAt0 m c n h).2.2 = Cert.Agg.proj (Earr m c) (Warr m c)
  | 0, h => by
    rw [outsAt0_A m c ⟨0, h⟩ rfl]
    dsimp only
    rw [scratch0_A, scratch1_A]
    exact ⟨(pay2_eq _ _).trans (by rw [← eblk_eq m c ⟨0, h⟩, ← wblk_eq m c ⟨0, h⟩]),
      (pay3_eq _ _).trans (by rw [← eblk_eq m c ⟨0, h⟩, ← wblk_eq m c ⟨0, h⟩])⟩
  | n + 1, h => by
    have hN : cfg0.N = 8 := N_0
    have hB : ¬(⟨n + 1, h⟩ : Fin cfg0.N).val % 8 = 0 := by dsimp only; omega
    rw [outsAt0_B m c ⟨n + 1, h⟩ hB]
    dsimp only
    unfold sout0_B_0 sout0_B_1
    exact scratch_eq c n _

/-! ## What each point writes back, and the final array -/

/-- The layer's result as a function of the launched arguments. -/
abbrev result (c : Dev nD) : Vec Ideal S4096x256 .f32 := Cert.Agg.G (Earr m c) (Aarr m c) (Warr m c) (barr m c)

/-- The output block after the body at point t. -/
theorem out_eq (c : Dev nD) (t : Fin cfg0.N) :
    (outsAt0 m c t.val t.isLt).1 = k0_pay4 (F := Ideal) (ablk m c t) (Cert.Agg.proj (Earr m c) (Warr m c))
      (rowsOf (grid0.coords t) (Cert.Agg.proj (Earr m c) (Warr m c))) (bblk m c t) := by
  by_cases h0 : t.val % 8 = 0
  · rw [outsAt0_A m c t h0]
    dsimp only
    rw [out_A, pay2_eq, pay3_eq]
    rw [show (iblk m c 1 t : Vec Ideal S4096x256 .f32) = Earr m c from eblk_eq m c t,
      show (iblk m c 2 t : Vec Ideal S256x256 .f32) = Warr m c from wblk_eq m c t]
  · rw [outsAt0_B m c t h0]
    dsimp only
    rw [out_B, (scratch_eq m c (t.val - 1) _).1, (scratch_eq m c (t.val - 1) _).2]

/-- What point t writes back is block t of the result. -/
theorem flushed_eq (c : Dev nD) (t : Fin cfg0.N) :
    (dats m 0 c).flushed 4 t = ((cfg0.win 4).blk t).view.read (Elt Ideal) (result m c) := by
  obtain ⟨-, -, -, -, -, -, -, -, e0, e1, -⟩ := idx_facts t
  rw [flushed4, out_eq]
  refine funext fun (y : S512x256.Idx) => ?_
  obtain ⟨p, q, rfl⟩ : ∃ (p : Fin 512) (q : Fin 256), y = ix2 p q := ⟨y 0, y 1, eq_ix2 y⟩
  have hemb : (((cfg0.win 4).blk t).view.emb (ix2 p q) : S4096x256.Idx) = ix2 (rowOf t p) q := by
    funext a
    apply Fin.ext
    match a with
    | ⟨0, _⟩ => show win0_4.index t (0 : Fin 2) * 512 + 1 * p.val = 512 * t.val + p.val; omega
    | ⟨1, _⟩ => show win0_4.index t (1 : Fin 2) * 256 + 1 * q.val = q.val; omega
  show k0_pay4 (F := Ideal) (ablk m c t) (Cert.Agg.proj (Earr m c) (Warr m c))
      (rowsOf (grid0.coords t) (Cert.Agg.proj (Earr m c) (Warr m c))) (bblk m c t) (ix2 p q)
    = result m c (((cfg0.win 4).blk t).view.emb (ix2 p q))
  rw [hemb, pay4_apply, rowsOf_apply, bblk_apply]
  simp only [ablk_apply]
  rfl

/-- The eight blocks tile the result array: row r is in block r / 512. -/
theorem cover (i : S4096x256.Idx) : ∃ t : Fin cfg0.N, (cfg0.win 4).flush t = true ∧ i ∈ ((cfg0.win 4).blk t).view.set := by
  have hN : cfg0.N = 8 := N_0
  have h0 : (i 0).val < 4096 := (i 0).isLt
  have h1 : (i 1).val < 256 := (i 1).isLt
  let t : Fin cfg0.N := ⟨(i 0).val / 512, by omega⟩
  obtain ⟨-, -, -, -, -, -, -, -, e0, e1, -⟩ := idx_facts t
  refine ⟨t, flush0_4 t, ?_⟩
  show i ∈ ((View.whole main_v0).slice (win0_4.rect t)).set
  rw [View.set_slice_whole, Rect.mem_set_unit]
  intro a
  have ht : t.val = (i 0).val / 512 := rfl
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The result array after the run. -/
theorem final (c : Dev nD) : (dats m 0 c).arrAt 4 cfg0.N = result m c :=
  (dats m 0 c).arrAt_eq_of_cover 4 (result m c) (fun t _ => flushed_eq m c t) cover

/-- The kernel's run: the result array ends at the layer's value of the launched arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Agg.Kern

end
-- ==== Proof.lean ====
/-
  A graph-aggregation layer, LeakyReLU((A·E + E)·Wᵀ + b), against a kernel that projects first:
  with Y = E·Wᵀ it computes LeakyReLU((A·Y + Y) + b), row block by row block, Y being computed once at the first
  grid point and kept in scratch memory for the others.

  Over the extended reals a change of float format is the identity and a matrix product is the plain sum of
  products, so the kernel's result at node r, feature j is the activation of (∑_k A(r,k)·Y(k,j) + Y(r,j)) + b(j)
  with Y(k,j) = ∑_d E(k,d)·W(j,d), and the reference's is the activation of
  ∑_d (E(r,d) + ∑_k A(r,k)·E(k,d))·W(j,d) + b(j). The two pre-activations are equal by distributivity and an
  exchange of the two finite sums — laws that hold when the entries of E, A and W are real numbers, which is
  what the precondition (every input finite) provides. The activation is the same function of that one quantity
  on both sides (same comparison against zero, same slope constant).

  The kernel's frames are the generated ones; the reference's frame is its run with the result dropped; the
  idealization rewrote nothing, so "preserves" is trivial.
-/
import proofs.«180344_g10445360464162_week1_w2_143_13_alg».proof.Defs
import proofs.«180344_g10445360464162_week1_w2_143_13_alg».proof.Proof.Gen.Kernel
import proofs.«180344_g10445360464162_week1_w2_143_13_alg».proof.Proof.Gen.Kernel.Skeleton
import proofs.«180344_g10445360464162_week1_w2_143_13_alg».proof.Proof.Gen.Kernel.Launch
import proofs.«180344_g10445360464162_week1_w2_143_13_alg».proof.Proof.Gen.Kernel.Points
import proofs.«180344_g10445360464162_week1_w2_143_13_alg».proof.Proof.Gen.Kernel.Frame
import proofs.«180344_g10445360464162_week1_w2_143_13_alg».proof.Proof.Gen.KernelIdeal
import proofs.«180344_g10445360464162_week1_w2_143_13_alg».proof.Proof.Gen.KernelIdeal.Skeleton
import proofs.«180344_g10445360464162_week1_w2_143_13_alg».proof.Proof.Gen.KernelIdeal.Launch
import proofs.«180344_g10445360464162_week1_w2_143_13_alg».proof.Proof.Gen.KernelIdeal.Points
import proofs.«180344_g10445360464162_week1_w2_143_13_alg».proof.Proof.Gen.KernelIdeal.Frame
import proofs.«180344_g10445360464162_week1_w2_143_13_alg».proof.Proof.Gen.ReferenceIdeal
import proofs.«180344_g10445360464162_week1_w2_143_13_alg».proof.Proof.Gen.Pre_finite_inputs
import proofs.«180344_g10445360464162_week1_w2_143_13_alg».proof.Proof.Gen.KernelIdeal.Value
import proofs.«180344_g10445360464162_week1_w2_143_13_alg».proof.Proof.Gen.ReferenceIdeal.Run
import proofs.«180344_g10445360464162_week1_w2_143_13_alg».proof.Proof.Gen.ReferenceIdeal.Read
import proofs.«180344_g10445360464162_week1_w2_143_13_alg».proof.Proof.Spec
import proofs.«180344_g10445360464162_week1_w2_143_13_alg».proof.Proof.Finite
import proofs.«180344_g10445360464162_week1_w2_143_13_alg».proof.Proof.RefValue
import proofs.«180344_g10445360464162_week1_w2_143_13_alg».proof.Proof.KernValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the layer's value of the (agreeing) arguments: the kernel at the
    "project first" form, the reference at the "aggregate first" form, equal entry by entry on real-valued inputs. -/
theorem algebraic : Cert.algebraic_KernelIdeal_ReferenceIdeal := by
  intro m ρ m' ρ' hpre hagree
  refine ⟨fun c => Cert.Agg.Kern.result m c, Cert.Agg.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Agg.Ref.val_eq, (hagree c).1, (hagree c).2.1, (hagree c).2.2.1,
    (hagree c).2.2.2]
  obtain ⟨hE, hA, hW, -⟩ := Cert.Agg.Finite.reals_of_pre _ _ _ _ (hpre c)
  funext i
  exact Cert.Agg.refAt_eq_outAt _ _ _ _ hE hA hW (i 0) (i 1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
